-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S1x8192 .f32) (main_arg1 : FVec F S8192x8192 .f32) (main_arg2 : FVec F S8192 .f32) (main_arg3 : FVec F S8192 .f32) (main_arg4 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S1x8192 : Shape := ⟨2, ![1, 8192]⟩
abbrev S8192x8192 : Shape := ⟨2, ![8192, 8192]⟩
abbrev S8192 : Shape := ⟨1, ![8192]⟩
abbrev S1x1024 : Shape := ⟨2, ![1, 1024]⟩
abbrev S2048x1024 : Shape := ⟨2, ![2048, 1024]⟩
abbrev S1x2048 : Shape := ⟨2, ![1, 2048]⟩
abbrev S_ : Shape := ⟨0, ![]⟩

abbrev nBuf : Space → Nat
  | .hbm => 28
  | .vmem => 17
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S1x8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .local _ .vmem, ⟨0, _⟩ => ⟨S1x1024, .f32⟩
  | .local _ .vmem, ⟨1, _⟩ => ⟨S1x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8192_S1x8192 : S8192.ShapeCasts S1x8192
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x1024_S2048x1024_0_0 : ∀ a, (![0, 0] : Fin 2 → Nat) a + S2048x1024.size a ≤ S2048x1024.size a
  h_S2048x1024 : 0 < S2048x1024.numel
  natLt_1_32 : 1 < 32
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x8192_S8192 : S1x8192.ShapeCasts S8192
  reducesTo_S8192_S_d0 : S8192.ReducesTo [0] S_
  h_S_ : 0 < S_.numel
  bcast_S_S8192 : S_.BroadcastsInDim S8192 (![] : Fin 0 → Fin S8192.rank)
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .f32 = 32 ∨ (Rect.block (s := S1x8192) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .f32 = 32 ∨ (Rect.block (s := S1x8192) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x8192.size a
  hwx0_6 : ∀ i : grid0.Coords, EltTy.bits .f32 = 32 ∨ (Rect.block (s := S1x8192) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x8192.size a
  hwx0_7 : ∀ i : grid0.Coords, EltTy.bits .f32 = 32 ∨ (Rect.block (s := S1x8192) S1x2048.size (cc0_transform_7 i) (hinb0_7 i)).WholeWords (EltTy.packing .f32)

variable [Facts₀]

def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_arg0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S1x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S8192x8192, .f32⟩
  | .hbm, ⟨9, _⟩ => ⟨S8192x8192, .f32⟩
  | .hbm, ⟨10, _⟩ => ⟨S1x8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .i1⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S8192x8192_S8192x8192_1_0 : S8192x8192.Transposes [1, 0] S8192x8192
  shapeCasts_S1x8192_S8192 : S1x8192.ShapeCasts S8192
  reducesTo_S8192_S_d0 : S8192.ReducesTo [0] S_
  h_S_ : 0 < S_.numel
  bcast_S_S8192 : S_.BroadcastsInDim S8192 (![] : Fin 0 → Fin S8192.rank)
  dot_S1x8192_S8192x8192_S1x8192_1_0_0_1_n_n_wf : DotDims.WF S1x8192 S8192x8192 S1x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.Pieces.lean ====
/-
  What one run of the kernel body leaves behind, case by case, as values.

  The body adds this point's partial current (the product of the 1024 inputs of the block with the 0/1 weights of a
  2048 × 1024 tile of synapse states) to an accumulator that lives across grid points. At the first block of a row of
  tiles the accumulator is cleared first; at the last block the three outputs are written from the finished
  accumulator. Each lemma says that the contents a case leaves in a buffer are the corresponding pure value of the
  blocks it loaded.
-/
import proofs.«127771_j53111565582354_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

variable (c : Dev nD) (i : grid0.Coords)
  (a2 : Memref sig .tc .vmem S1x1024 .f32) (h2 : a2.IsWhole) (a3 : Memref sig .tc .vmem S2048x1024 .f32) (h3 : a3.IsWhole)
  (a4 : Memref sig .tc .vmem S1x2048 .f32) (h4 : a4.IsWhole) (a5 : Memref sig .tc .vmem S1x2048 .f32) (h5 : a5.IsWhole)
  (a6 : Memref sig .tc .vmem S1x2048 .f32) (h6 : a6.IsWhole) (a7 : Memref sig .tc .vmem S1x2048 .f32) (h7 : a7.IsWhole)
  (a8 : Memref sig .tc .vmem S1x2048 .f32) (h8 : a8.IsWhole) (a9 : Memref sig .tc .vmem S1x2048 .f32) (h9 : a9.IsWhole)
  (a10 : Memref sig .tc .vmem S1x2048 .f32) (h10 : a10.IsWhole)
  (x0 : Vec F S1x1024 .f32) (x1 : Vec F S2048x1024 .f32) (x2 x3 x4 xs0 : Vec F S1x2048 .f32)

theorem hz : (![0, 0] : Fin 2 → Nat) = fun _ => 0 := funext fun a => by fin_cases a <;> rfl

/-- A middle block: the accumulator `xs0` plus this block's partial current. -/
theorem acc_B (hc0 : ¬cond0_0 i) (hc1 : ¬cond0_1 i) :
    sout0_B_0 c i a2 h2 a3 h3 a4 h4 a5 h5 a6 h6 a7 h7 a8 h8 a9 h9 a10 h10 hc0 hc1 x0 x1 x2 x3 x4 xs0 = k0_pay2 x1 x0 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 xs0)]
  unfold kernelRun0_B
  dsimp only
  sl_unfold_words
  rw [View.canon_unit_zero hz]
  simp only [View.readAt_eq_ld, h2.read_unread, h3.read_unread, h10.read_unread, View.ld_unit_zero (S := S1x2048) hz,
    View.ld_unit_zero (S := S1x1024) hz, View.ld_unit_zero (S := S2048x1024) hz]

/-- The first block: the accumulator is cleared, then this block's partial current is added to the zero. -/
theorem acc_A (hc0 : cond0_0 i) (hc1 : ¬cond0_1 i) :
    sout0_A_0 c i a2 h2 a3 h3 a4 h4 a5 h5 a6 h6 a7 h7 a8 h8 a9 h9 a10 h10 hc0 hc1 x0 x1 x2 x3 x4 = k0_pay2 x1 x0 (k0_pay1 (F := F)) := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1x2048) hz, View.readCov_unit_zero (S := S1x2048) _ hz]
  simp only [View.readAt_eq_ld, h2.read_unread, h3.read_unread, h10.read_unread, View.ld_unit_zero (S := S1x2048) hz,
    View.ld_unit_zero (S := S1x1024) hz, View.ld_unit_zero (S := S2048x1024) hz]

/-- The last block leaves the same accumulator as a middle one … -/
theorem acc_C (hc0 : ¬cond0_0 i) (hc1 : cond0_1 i) :
    sout0_C_0 c i a2 h2 a3 h3 a4 h4 a5 h5 a6 h6 a7 h7 a8 h8 a9 h9 a10 h10 hc0 hc1 x0 x1 x2 x3 x4 xs0 = k0_pay2 x1 x0 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero hz]
  simp only [View.readAt_eq_ld, h2.read_unread, h3.read_unread, h10.read_unread, View.ld_unit_zero (S := S1x2048) hz,
    View.ld_unit_zero (S := S1x1024) hz, View.ld_unit_zero (S := S2048x1024) hz]

/-- … and writes the spikes from it (membrane block `x2`, noise block `x4`, threshold block `x3`), -/
theorem spikes_C (hc0 : ¬cond0_0 i) (hc1 : cond0_1 i) :
    out0_C_5 c i a2 h2 a3 h3 a4 h4 a5 h5 a6 h6 a7 h7 a8 h8 a9 h9 a10 h10 hc0 hc1 x0 x1 x2 x3 x4 xs0
      = k0_pay3 (k0_pay2 x1 x0 xs0) x2 x4 x3 := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h10.read_unread,
    View.readCov_unit_zero (S := S1x2048) _ hz, View.ld_unit_zero (S := S1x2048) hz,
    View.ld_unit_zero (S := S1x1024) hz, View.ld_unit_zero (S := S2048x1024) hz]

/-- the moved threshold, -/
theorem thresh_C (hc0 : ¬cond0_0 i) (hc1 : cond0_1 i) :
    out0_C_6 c i a2 h2 a3 h3 a4 h4 a5 h5 a6 h6 a7 h7 a8 h8 a9 h9 a10 h10 hc0 hc1 x0 x1 x2 x3 x4 xs0
      = k0_pay4 (k0_pay2 x1 x0 xs0) x2 x4 x3 x3 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h10.read_unread,
    View.readCov_unit_zero (S := S1x2048) _ hz, View.ld_unit_zero (S := S1x2048) hz,
    View.ld_unit_zero (S := S1x1024) hz, View.ld_unit_zero (S := S2048x1024) hz]

/-- and the current itself. -/
theorem current_C (hc0 : ¬cond0_0 i) (hc1 : cond0_1 i) :
    out0_C_7 c i a2 h2 a3 h3 a4 h4 a5 h5 a6 h6 a7 h7 a8 h8 a9 h9 a10 h10 hc0 hc1 x0 x1 x2 x3 x4 xs0 = k0_pay2 x1 x0 xs0 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h10.read_unread,
    View.readCov_unit_zero (S := S1x2048) _ hz, View.ld_unit_zero (S := S1x2048) hz,
    View.ld_unit_zero (S := S1x1024) hz, View.ld_unit_zero (S := S2048x1024) hz]

end Cert.KernelIdeal.Pieces

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.LibNatRead.lean ====
/-
  Arrays read at natural-number coordinates.

  A block of a tiled array is addressed by `tile · size + offset`; carrying the bound `tile · size + offset < extent`
  through every statement about a block is noise. So a rank-2 array is read here at two natural numbers: the entry when
  both are in range, `0` otherwise (a value no statement below depends on). `at2_val` turns an entry read at an
  index's own coordinates back into the entry.
-/
import Idealize.ShloMosaic.Lib.ValueIdx

noncomputable section

namespace NatRead

open Idealize.ShloMosaic Idealize.ShloMosaic.ValueIdx

variable {M N : ℕ}

/-- The entry at row `a`, column `b`, or `0` out of range. -/
def at2 (v : (⟨2, ![M, N]⟩ : Shape).Idx → EReal) (a b : ℕ) : EReal :=
  if h : a < M ∧ b < N then v (ix2 ⟨a, h.1⟩ ⟨b, h.2⟩) else 0

theorem at2_of_lt (v : (⟨2, ![M, N]⟩ : Shape).Idx → EReal) {a b : ℕ} (ha : a < M) (hb : b < N) :
    at2 v a b = v (ix2 ⟨a, ha⟩ ⟨b, hb⟩) := dif_pos ⟨ha, hb⟩

/-- Read at an index's own coordinates: the entry. -/
theorem at2_val (v : (⟨2, ![M, N]⟩ : Shape).Idx → EReal) (i : (⟨2, ![M, N]⟩ : Shape).Idx) :
    at2 v (i 0).val (i 1).val = v i := by
  rw [at2_of_lt v (i 0).isLt (i 1).isLt]
  exact congrArg v (eq_ix2 i).symm

/-- Read at coordinates given as `Fin`s: the entry. -/
theorem at2_fin (v : (⟨2, ![M, N]⟩ : Shape).Idx → EReal) (a : Fin M) (b : Fin N) :
    at2 v a.val b.val = v (ix2 a b) := at2_of_lt v a.isLt b.isLt

end NatRead

end
-- ==== Proof.Spec.lean ====
/-
  The spiking layer, as functions of its five argument arrays over the extended reals.

  A synapse state above 50 is an active synapse (weight 1, otherwise 0). The input current of neuron n is the sum
  over the 8192 inputs k of x[0, k] times the weight of state[n, k]. The neuron spikes (value 1, otherwise 0) when
  v_mem[n] + current[n] + noise[n] reaches its threshold v_th[n]; the threshold then moves by (spike - 0.1) * 0.01 and
  is clipped to [0.2, 5]. The membrane update, which needs the spike count of ALL neurons, is the same chain of
  whole-array operations in both programs; it is kept as one function (`tail`) of the membrane, spike and current
  vectors and is never opened.

  The one law of the file: a current accumulated over eight consecutive blocks of 1024 inputs, starting from zero, is
  the sum over all 8192 inputs. Addition of extended reals is commutative and associative and zero is neutral, so no
  finiteness is needed.
-/
import Idealize.ShloMosaic.Lib.ValueIdx
import Idealize.ShloMosaic.PureOps.Ideal.Laws
import proofs.«127771_j53111565582354_1_alg».proof.Proof.LibBlockSum
import proofs.«127771_j53111565582354_1_alg».proof.Proof.LibNatRead

noncomputable section

open scoped BigOperators

namespace SpikeSpec

open Idealize.ShloMosaic Idealize.ShloMosaic.ValueIdx NatRead

/-- A row of 8192 entries. -/
abbrev Row : Shape := ⟨2, ![1, 8192]⟩
/-- The 8192 × 8192 synapse states. -/
abbrev Sq : Shape := ⟨2, ![8192, 8192]⟩
/-- A vector of 8192 entries. -/
abbrev Vc : Shape := ⟨1, ![8192]⟩
/-- A scalar. -/
abbrev Sc : Shape := ⟨0, ![]⟩

/-- The 0/1 value of a one-bit word. -/
abbrev bit01 (b : BitVec 1) : Ideal .f32 := FloatOps.uitofp (F := Ideal) .f32 b

/-- Widening a one-bit word to 32 bits without sign and reading it signed gives the same 0/1 value. -/
theorem sitofp_widen (b : BitVec 1) : FloatOps.sitofp (F := Ideal) .f32 (b.setWidth 32) = bit01 b := by
  have h : ∀ b : BitVec 1, (b.setWidth 32).toInt = (b.toNat : Int) := by decide
  show (((b.setWidth 32).toInt : ℝ) : EReal) = ((b.toNat : ℝ) : EReal)
  rw [h b]; simp

/-- The weight of a synapse state: 1 above 50, else 0. -/
def wgt (s : Ideal .f32) : Ideal .f32 :=
  bit01 (FloatOps.cmpf (F := Ideal) (φ := .f32) .ogt s (Ideal.ofBits .f32 0x42480000#32))

/-- The input current of neuron n. -/
def cur (x : FVec Ideal Row .f32) (syn : FVec Ideal Sq .f32) (n : Fin 8192) : Ideal .f32 :=
  ∑ k : Fin 8192, x (ix2 0 k) * wgt (syn (ix2 n k))

/-- Whether neuron n spikes: 1 when membrane + current + noise reaches the threshold. -/
def spk (x : FVec Ideal Row .f32) (syn : FVec Ideal Sq .f32) (vm vt nz : FVec Ideal Vc .f32) (n : Fin 8192) : Ideal .f32 :=
  bit01 (FloatOps.cmpf (F := Ideal) (φ := .f32) .oge ((vm (ix1 n) + cur x syn n) + nz (ix1 n)) (vt (ix1 n)))

/-- The moved and clipped threshold of neuron n. -/
def vth (x : FVec Ideal Row .f32) (syn : FVec Ideal Sq .f32) (vm vt nz : FVec Ideal Vc .f32) (n : Fin 8192) : Ideal .f32 :=
  min (Ideal.ofBits .f32 0x40A00000#32) (max (Ideal.ofBits .f32 0x3E4CCCCD#32)
    (vt (ix1 n) + (spk x syn vm vt nz n - Ideal.ofBits .f32 0x3DCCCCCD#32) * Ideal.ofBits .f32 0x3C23D70A#32))

/-- The three per-neuron quantities as vectors. -/
def curVec (x : FVec Ideal Row .f32) (syn : FVec Ideal Sq .f32) : FVec Ideal Vc .f32 := fun i => cur x syn (i 0)
def spkVec (x : FVec Ideal Row .f32) (syn : FVec Ideal Sq .f32) (vm vt nz : FVec Ideal Vc .f32) : FVec Ideal Vc .f32 :=
  fun i => spk x syn vm vt nz (i 0)
def vthVec (x : FVec Ideal Row .f32) (syn : FVec Ideal Sq .f32) (vm vt nz : FVec Ideal Vc .f32) : FVec Ideal Vc .f32 :=
  fun i => vth x syn vm vt nz (i 0)

/-- The membrane update both programs apply to (membrane, spikes, current): the spike count halved is subtracted from
    every membrane, the current is added, a spiking neuron is reset (factor 1 - spike), and the result is halved. -/
def tail (hr : Vc.ReducesTo [0] Sc) (hS : 0 < Sc.numel) (hb : Sc.BroadcastsInDim Vc (![] : Fin 0 → Fin Vc.rank))
    (vm sp cu : FVec Ideal Vc .f32) : FVec Ideal Vc .f32 :=
  mulf (mulf (addf (subf vm (broadcastInDim Vc ![] hb
      (mulf (Host.reduceAdd (F := Ideal) sp (constant (F := Ideal) Sc .f32 0x00000000#32) hr hS) (constant (F := Ideal) Sc .f32 0x3F000000#32)))) cu)
    (subf (broadcastInDim Vc ![] hb (constant (F := Ideal) Sc .f32 0x3F800000#32)) sp))
    (broadcastInDim Vc ![] hb (constant (F := Ideal) Sc .f32 0x3F000000#32))

/-! ## Eight blocks of 1024 inputs -/

/-- The term of input j in the current of neuron n, at natural-number coordinates (0 out of range). -/
def term (x : FVec Ideal Row .f32) (syn : FVec Ideal Sq .f32) (n j : ℕ) : Ideal .f32 :=
  at2 x 0 j * wgt (at2 syn n j)

/-- The part of neuron n's current that block s of 1024 inputs contributes. -/
def blockPart (x : FVec Ideal Row .f32) (syn : FVec Ideal Sq .f32) (n s : ℕ) : Ideal .f32 :=
  ∑ k : Fin 1024, term x syn n (1024 * s + k.val)

/-- All eight blocks together are the whole current. -/
theorem sum_blockPart (x : FVec Ideal Row .f32) (syn : FVec Ideal Sq .f32) (n : Fin 8192) :
    ∑ s ∈ Finset.range 8, blockPart x syn n.val s = cur x syn n := by
  unfold blockPart cur
  rw [← BlockSum.sum_fin_mul (fun j => term x syn n.val j) 8 1024]
  show ∑ k : Fin 8192, term x syn n.val k.val = _
  refine Finset.sum_congr rfl fun k _ => ?_
  unfold term
  rw [show at2 x 0 k.val = x (ix2 0 k) from at2_fin x 0 k, at2_fin syn n k]

end SpikeSpec

end
-- ==== Proof.LibMatmulRows.lean ====
/-
  A matrix product that contracts the LAST axis of both rank-2 operands, read at one entry over the extended reals.

  The dimension numbers are those of `DotDims.transposedRhs M K N`: an M×K left operand against an N×K right operand
  (the right operand is used as it lies, rows against rows), into an M×N result. Started from the zero accumulator,
  entry (p, q) of the product is the plain sum over k of x[p, k] · y[q, k]: addition of extended reals is commutative
  and associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulRows

open Idealize.ShloMosaic Idealize.ShloMosaic.ValueIdx

variable {M K N : Nat}

/-- The left operand is read at row `i 0` of the result index … -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- … and at the contraction position on its last axis. -/
theorem lhs_col (i : (⟨2, ![M, N]⟩ : Shape).Idx) (q : (DotDims.transposedRhs M K N).contr.Idx) :
    ((DotDims.transposedRhs M K N).lhsIdx i q 1).val = (q ⟨0, by rw [DotDims.rank_contr]; exact Nat.one_pos⟩).val :=
  (DotDims.transposedRhs M K N).lhsIdx_val_of_single rfl i q

/-- The right operand is read at row `i 1` of the result index … -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- … and at the same contraction position on its last axis. -/
theorem rhs_col (i : (⟨2, ![M, N]⟩ : Shape).Idx) (q : (DotDims.transposedRhs M K N).contr.Idx) :
    ((DotDims.transposedRhs M K N).rhsIdx i q 1).val = (q ⟨0, by rw [DotDims.rank_contr]; exact Nat.one_pos⟩).val :=
  (DotDims.transposedRhs M K N).rhsIdx_val_of_single rfl i q

/-- Entry (p, q) of x · yᵀ from the zero accumulator: the sum over k of x[p, k] · y[q, k]. -/
theorem matmul_zero_apply {φ₁ φ₂ : FTy} (prec : Option ContractPrecision)
    (x : FVec Ideal ⟨2, ![M, K]⟩ φ₁) (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ k : Fin K, x (ix2 p k) * y (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_row _ _
    | ⟨1, _⟩ => exact (lhs_col _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_row _ _
    | ⟨1, _⟩ => exact (rhs_col _ _).trans hk)
  rw [el, er]

end Idealize.ShloMosaic.MatmulRows

end
-- ==== Proof.KPoint.lean ====
/-
  The body's four stored values, read at one entry over the extended reals.

  One run of the body holds a 1 × 1024 block of inputs and a 2048 × 1024 tile of synapse states. Its partial current
  for the tile's neuron q is the sum over the block's 1024 inputs of input times weight (a change of float format is
  the identity here, and the matrix unit started from zero is a plain sum); the accumulator gains that. From a finished
  accumulator the spike is the 0/1 outcome of membrane + accumulator + noise against the threshold, and the new threshold
  is the old one moved by (spike - 0.1) * 0.01 and clipped to [0.2, 5].
-/
import proofs.«127771_j53111565582354_1_alg».proof.Proof.Gen.KernelIdeal.Skeleton
import proofs.«127771_j53111565582354_1_alg».proof.Proof.Spec
import proofs.«127771_j53111565582354_1_alg».proof.Proof.LibMatmulRows
import Idealize.ShloMosaic.Lib.Pipeline.Value

noncomputable section

open scoped BigOperators

namespace Cert.KernelIdeal.Point

open Idealize.ShloMosaic Idealize.ShloMosaic.ValueIdx
open Cert.KernelIdeal Cert.KernelIdeal.Gen SpikeSpec

/-- The cleared accumulator holds zero. -/
theorem cleared_apply (q : Fin 2048) : (k0_pay1 (F := Ideal)) (ix2 0 q) = 0 := by
  unfold k0_pay1
  simp only [shapeCast_self]
  exact Ideal.ofBits_zero_f32

/-- The matrix unit, contracting the 1024 inputs of the block against each row of the tile, from zero. -/
theorem product_apply (x : FVec Ideal S1x1024 .bf16) (w : FVec Ideal S2048x1024 .bf16) (q : Fin 2048) :
    matmul dot_S1x1024_S2048x1024_S1x2048_1_1_0_0_n_n none x w (constant S1x2048 .f32 0x00000000#32) (ix2 0 q)
      = ∑ k : Fin 1024, x (ix2 0 k) * w (ix2 q k) :=
  MatmulRows.matmul_zero_apply (M := 1) (K := 1024) (N := 2048) none x w 0 q

/-- The accumulator after a run: what it held plus the block's partial current of neuron q of the tile. -/
theorem accumulate_apply (w : FVec Ideal S2048x1024 .f32) (x : FVec Ideal S1x1024 .f32) (acc : FVec Ideal S1x2048 .f32) (q : Fin 2048) :
    k0_pay2 (F := Ideal) w x acc (ix2 0 q) = acc (ix2 0 q) + ∑ k : Fin 1024, x (ix2 0 k) * wgt (w (ix2 q k)) := by
  unfold k0_pay2
  simp only [shapeCast_self]
  rw [addf_apply, product_apply]
  refine congrArg (acc (ix2 0 q) + ·) (Finset.sum_congr rfl fun k _ => ?_)
  rw [truncf_apply, truncf_apply, sitofp_apply, extui_apply, sitofp_widen]
  rfl

/-- The spike of neuron q of the tile, from the finished accumulator and the membrane, noise and threshold blocks. -/
theorem spike_apply (acc vm nz vt : FVec Ideal S1x2048 .f32) (q : Fin 2048) :
    k0_pay3 (F := Ideal) acc vm nz vt (ix2 0 q)
      = bit01 (FloatOps.cmpf (F := Ideal) (φ := .f32) .oge ((vm (ix2 0 q) + acc (ix2 0 q)) + nz (ix2 0 q)) (vt (ix2 0 q))) := by
  unfold k0_pay3
  simp only [shapeCast_self]
  rw [sitofp_apply, extui_apply, sitofp_widen]
  rfl

/-- The moved and clipped threshold of neuron q of the tile. -/
theorem threshold_apply (acc vm nz vt vt' : FVec Ideal S1x2048 .f32) (q : Fin 2048) :
    k0_pay4 (F := Ideal) acc vm nz vt vt' (ix2 0 q)
      = min (Ideal.ofBits .f32 0x40A00000#32) (max (Ideal.ofBits .f32 0x3E4CCCCD#32)
          (vt' (ix2 0 q) + (k0_pay3 (F := Ideal) acc vm nz vt (ix2 0 q) - Ideal.ofBits .f32 0x3DCCCCCD#32) * Ideal.ofBits .f32 0x3C23D70A#32)) := by
  unfold k0_pay4
  simp only [shapeCast_self]
  rfl

end Cert.KernelIdeal.Point

end
-- ==== Proof.KBlocks.lean ====
/-
  The blocks the pipeline hands the body, read off the five argument arrays.

  The grid has 4 × 8 points; point t works on row-tile t / 8 (2048 neurons) and input block t % 8 (1024 inputs). The
  input row's block at t is inputs 1024·(t % 8) + k; the synapse tile at t is neurons 2048·(t / 8) + q against the
  same inputs; the membrane, threshold and noise blocks are neurons 2048·(t / 8) + q of the vectors, which reach the
  kernel reshaped to one row of 8192 (a reshape keeps the row-major position, so entry (0, n) of the row is entry n of
  the vector).
-/
import proofs.«127771_j53111565582354_1_alg».proof.Proof.Gen.KernelIdeal.Frame
import proofs.«127771_j53111565582354_1_alg».proof.Proof.Spec
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen SpikeSpec NatRead

variable (m : (ℓ : Loc nD τ sig) → Buf (Elt Ideal) ℓ)

/-- The five argument arrays on core c: the input row, the synapse states, the membrane, threshold and noise vectors. -/
abbrev argX (c : Dev nD) : FVec Ideal Row .f32 := m ((c : Thread nD τ).loc main_arg0)
abbrev argS (c : Dev nD) : FVec Ideal Sq .f32 := m ((c : Thread nD τ).loc main_arg1)
abbrev argM (c : Dev nD) : FVec Ideal Vc .f32 := m ((c : Thread nD τ).loc main_arg2)
abbrev argT (c : Dev nD) : FVec Ideal Vc .f32 := m ((c : Thread nD τ).loc main_arg3)
abbrev argN (c : Dev nD) : FVec Ideal Vc .f32 := m ((c : Thread nD τ).loc main_arg4)

/-- The block index of every window at every grid point, decided over the 32 points. -/
theorem idx_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = t.val / 8
    ∧ win0_5.index t (0 : Fin 2) = 0 ∧ win0_5.index t (1 : Fin 2) = t.val / 8
    ∧ win0_6.index t (0 : Fin 2) = 0 ∧ win0_6.index t (1 : Fin 2) = t.val / 8
    ∧ win0_7.index t (0 : Fin 2) = 0 ∧ win0_7.index t (1 : Fin 2) = t.val / 8 :=
  (by decide +kernel : ∀ t : Fin grid0.N, _)

theorem lt_N (t : Fin cfg0.N) : t.val < 32 := lt_of_lt_of_eq t.isLt (show cfg0.N = 32 from N_0)

/-- The input block at point t. -/
theorem input_apply (c : Dev nD) (t : Fin cfg0.N) (k : Fin 1024) :
    (iblk m c 0 t : FVec Ideal S1x1024 .f32) (ix2 0 k) = at2 (argX m c) 0 (1024 * (t.val % 8) + k.val) := by
  have hk := k.isLt
  rw [at2_of_lt (argX m c) Nat.one_pos (show 1024 * (t.val % 8) + k.val < 8192 by omega)]
  unfold iblk
  rw [View.read_apply]
  show V m c main_arg0 _ = m ((c : Thread nD τ).loc main_arg0) _
  rw [V_main_arg0]
  refine congrArg _ (funext fun a => Fin.ext ?_)
  obtain ⟨e0, e1, -⟩ := idx_facts t
  match a with
  | ⟨0, _⟩ => show win0_0.index t (0 : Fin 2) * 1 + 1 * 0 = 0; omega
  | ⟨1, _⟩ => show win0_0.index t (1 : Fin 2) * 1024 + 1 * k.val = 1024 * (t.val % 8) + k.val; omega

/-- The synapse tile at point t. -/
theorem tile_apply (c : Dev nD) (t : Fin cfg0.N) (q : Fin 2048) (k : Fin 1024) :
    (iblk m c 1 t : FVec Ideal S2048x1024 .f32) (ix2 q k)
      = at2 (argS m c) (2048 * (t.val / 8) + q.val) (1024 * (t.val % 8) + k.val) := by
  have hk := k.isLt
  have hq := q.isLt
  have ht := lt_N t
  rw [at2_of_lt (argS m c) (show 2048 * (t.val / 8) + q.val < 8192 by omega) (show 1024 * (t.val % 8) + k.val < 8192 by omega)]
  unfold iblk
  rw [View.read_apply]
  show V m c main_arg1 _ = m ((c : Thread nD τ).loc main_arg1) _
  rw [V_main_arg1]
  refine congrArg _ (funext fun a => Fin.ext ?_)
  obtain ⟨-, -, e0, e1, -⟩ := idx_facts t
  match a with
  | ⟨0, _⟩ => show win0_1.index t (0 : Fin 2) * 2048 + 1 * q.val = 2048 * (t.val / 8) + q.val; omega
  | ⟨1, _⟩ => show win0_1.index t (1 : Fin 2) * 1024 + 1 * k.val = 1024 * (t.val % 8) + k.val; omega

/-- Neuron 2048·(t / 8) + q, as an entry of the vectors. -/
abbrev neuron (t : Fin cfg0.N) (q : Fin 2048) : Fin 8192 :=
  ⟨2048 * (t.val / 8) + q.val, by have := lt_N t; have := q.isLt; omega⟩

/-- A vector reshaped to one row: entry (0, n) is entry n. -/
theorem row_apply (v : FVec Ideal S8192 .f32) (n : Fin 8192) :
    shapeCast S1x8192 v shapeCasts_S8192_S1x8192 (ix2 0 n) = v (ix1 n) :=
  shapeCast_apply v shapeCasts_S8192_S1x8192 (ix2 0 n) (ix1 n)
    (by rewrite [Shape.rowMajor_val_one, Shape.rowMajor_val_two]; show n.val = 0 * 8192 + n.val; omega)

/-- The three reshaped vectors as the region finds them. -/
theorem V_membrane (c : Dev nD) :
    (V m c main_v0 : FVec Ideal S1x8192 .f32) = shapeCast S1x8192 (argM m c) shapeCasts_S8192_S1x8192 := by
  show StableHlo.after hostOps0 (fun b => m (c, b)) (Proc.devRef .tc main_v0) = _
  after_results; rfl
theorem V_threshold (c : Dev nD) :
    (V m c main_v1 : FVec Ideal S1x8192 .f32) = shapeCast S1x8192 (argT m c) shapeCasts_S8192_S1x8192 := by
  show StableHlo.after hostOps0 (fun b => m (c, b)) (Proc.devRef .tc main_v1) = _
  after_results; rfl
theorem V_noise (c : Dev nD) :
    (V m c main_v2 : FVec Ideal S1x8192 .f32) = shapeCast S1x8192 (argN m c) shapeCasts_S8192_S1x8192 := by
  show StableHlo.after hostOps0 (fun b => m (c, b)) (Proc.devRef .tc main_v2) = _
  after_results; rfl

/-- The membrane block at point t. -/
theorem membrane_apply (c : Dev nD) (t : Fin cfg0.N) (q : Fin 2048) :
    (iblk m c 2 t : FVec Ideal S1x2048 .f32) (ix2 0 q) = argM m c (ix1 (neuron t q)) := by
  rw [← row_apply (argM m c) (neuron t q), ← V_membrane]
  unfold iblk
  rw [View.read_apply]
  show V m c main_v0 _ = V m c main_v0 _
  refine congrArg _ (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 2048 + 1 * q.val = 2048 * (t.val / 8) + q.val; omega

/-- The threshold block at point t. -/
theorem threshold_apply (c : Dev nD) (t : Fin cfg0.N) (q : Fin 2048) :
    (iblk m c 3 t : FVec Ideal S1x2048 .f32) (ix2 0 q) = argT m c (ix1 (neuron t q)) := by
  rw [← row_apply (argT m c) (neuron t q), ← V_threshold]
  unfold iblk
  rw [View.read_apply]
  show V m c main_v1 _ = V m c main_v1 _
  refine congrArg _ (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 2048 + 1 * q.val = 2048 * (t.val / 8) + q.val; omega

/-- The noise block at point t. -/
theorem noise_apply (c : Dev nD) (t : Fin cfg0.N) (q : Fin 2048) :
    (iblk m c 4 t : FVec Ideal S1x2048 .f32) (ix2 0 q) = argN m c (ix1 (neuron t q)) := by
  rw [← row_apply (argN m c) (neuron t q), ← V_noise]
  unfold iblk
  rw [View.read_apply]
  show V m c main_v2 _ = V m c main_v2 _
  refine congrArg _ (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 2048 + 1 * q.val = 2048 * (t.val / 8) + q.val; omega

end Cert.KernelIdeal.Blocks

end
-- ==== Proof.KChain.lean ====
/-
  The accumulator across the grid, and the three outputs at the end of a row of tiles.

  Within row-tile i the eight points i·8 + s add the partial currents of input blocks s = 0 … 7, the first onto a
  cleared accumulator. So after point n the accumulator entry of the tile's neuron q is the sum over the blocks
  s ≤ n % 8 of that neuron's block part: by induction on the point. At the last block the sum runs over all eight
  blocks, which is the neuron's whole current, and the outputs written there are the layer's spike, threshold and
  current of neuron 2048·i + q.
-/
import proofs.«127771_j53111565582354_1_alg».proof.Proof.Pieces
import proofs.«127771_j53111565582354_1_alg».proof.Proof.KPoint
import proofs.«127771_j53111565582354_1_alg».proof.Proof.KBlocks

noncomputable section

open scoped BigOperators

namespace Cert.KernelIdeal.Chain

open Idealize.ShloMosaic Idealize.ShloMosaic.TcCoe Idealize.SL.Sem Idealize.ShloMosaic.ValueIdx
open Cert.KernelIdeal Cert.KernelIdeal.Gen Cert.KernelIdeal.Blocks SpikeSpec NatRead

variable (m : (ℓ : Loc nD τ sig) → Buf (Elt Ideal) ℓ)

/-- The blocks at point t, at their literal types. -/
abbrev xblk (c : Dev nD) (t : Fin cfg0.N) : FVec Ideal S1x1024 .f32 := iblk m c 0 t
abbrev wblk (c : Dev nD) (t : Fin cfg0.N) : FVec Ideal S2048x1024 .f32 := iblk m c 1 t
abbrev mblk (c : Dev nD) (t : Fin cfg0.N) : FVec Ideal S1x2048 .f32 := iblk m c 2 t
abbrev tblk (c : Dev nD) (t : Fin cfg0.N) : FVec Ideal S1x2048 .f32 := iblk m c 3 t
abbrev nblk (c : Dev nD) (t : Fin cfg0.N) : FVec Ideal S1x2048 .f32 := iblk m c 4 t

/-- The accumulator after point n. -/
abbrev accAt (c : Dev nD) (n : ℕ) (hn : n < cfg0.N) : FVec Ideal S1x2048 .f32 := (outsAt0 m c n hn).2.2.2

/-- At the first block of a row of tiles the accumulator restarts from zero. -/
theorem acc_first (c : Dev nD) (t : Fin cfg0.N) (h0 : t.val % 8 = 0) :
    accAt m c t.val t.isLt = k0_pay2 (F := Ideal) (wblk m c t) (xblk m c t) (k0_pay1 (F := Ideal)) := by
  have h1 : ¬t.val % 8 = 7 := by omega
  show (outsAt0 m c t.val t.isLt).2.2.2 = _
  rw [outsAt0_A m c t h0 h1]
  dsimp only
  exact Pieces.acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0) (fun h => h1 ((hcond0_1 t).mp h))

/-- At every later block it gains the block's partial current. -/
theorem acc_later (c : Dev nD) (t : Fin cfg0.N) (h0 : ¬t.val % 8 = 0) :
    accAt m c t.val t.isLt = k0_pay2 (F := Ideal) (wblk m c t) (xblk m c t) (outsAt0 m c (t.val - 1) (Nat.lt_of_le_of_lt (Nat.sub_le _ _) t.isLt)).2.2.2 := by
  show (outsAt0 m c t.val t.isLt).2.2.2 = _
  by_cases h1 : t.val % 8 = 7
  · rw [outsAt0_C m c t h0 h1]
    dsimp only
    exact Pieces.acc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) ((hcond0_1 t).mpr h1)
  · rw [outsAt0_B m c t h0 h1]
    dsimp only
    exact Pieces.acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) (fun h => h1 ((hcond0_1 t).mp h))

/-- The partial current of point t for the tile's neuron q is that neuron's part of input block t % 8. -/
theorem partial_eq (c : Dev nD) (t : Fin cfg0.N) (q : Fin 2048) :
    ∑ k : Fin 1024, xblk m c t (ix2 0 k) * wgt (wblk m c t (ix2 q k))
      = blockPart (argX m c) (argS m c) (2048 * (t.val / 8) + q.val) (t.val % 8) := by
  unfold blockPart term
  refine Finset.sum_congr rfl fun k _ => ?_
  rw [show xblk m c t (ix2 0 k) = _ from input_apply m c t k, show wblk m c t (ix2 q k) = _ from tile_apply m c t q k]

/-- After point n the accumulator holds the parts of the blocks 0 … n % 8. -/
theorem acc_eq (c : Dev nD) : ∀ (n : ℕ) (hn : n < cfg0.N) (q : Fin 2048),
    accAt m c n hn (ix2 0 q)
      = ∑ s ∈ Finset.range (n % 8 + 1), blockPart (argX m c) (argS m c) (2048 * (n / 8) + q.val) s
  | 0, hn, q => by
    rw [acc_first m c ⟨0, hn⟩ rfl, Point.accumulate_apply, Point.cleared_apply, zero_add, partial_eq]
    simp
  | n + 1, hn, q => by
    have hN : n + 1 < 32 := lt_of_lt_of_eq hn (show cfg0.N = 32 from N_0)
    by_cases h0 : (n + 1) % 8 = 0
    · rw [acc_first m c ⟨n + 1, hn⟩ h0, Point.accumulate_apply, Point.cleared_apply, zero_add, partial_eq]
      show blockPart _ _ (2048 * ((n + 1) / 8) + q.val) ((n + 1) % 8) = _
      rw [h0]
      simp
    · have ih := acc_eq c n (Nat.lt_of_succ_lt hn) q
      rw [acc_later m c ⟨n + 1, hn⟩ h0, Point.accumulate_apply, partial_eq]
      show accAt m c n _ (ix2 0 q) + blockPart _ _ (2048 * ((n + 1) / 8) + q.val) ((n + 1) % 8) = _
      rw [ih]
      have e1 : (n + 1) / 8 = n / 8 := by omega
      have e2 : (n + 1) % 8 = n % 8 + 1 := by omega
      rw [e1, e2, Finset.sum_range_succ (n := n % 8 + 1)]

/-- At the last block of a row of tiles the accumulator holds the whole current. -/
theorem acc_last (c : Dev nD) (t : Fin cfg0.N) (h1 : t.val % 8 = 7) (q : Fin 2048) :
    accAt m c t.val t.isLt (ix2 0 q) = cur (argX m c) (argS m c) (neuron t q) := by
  rw [acc_eq m c t.val t.isLt q, h1]
  exact sum_blockPart (argX m c) (argS m c) (neuron t q)

/-- What the last block writes into the three outputs' buffers, over the finished accumulator. -/
theorem spikes_vec (c : Dev nD) (t : Fin cfg0.N) (h1 : t.val % 8 = 7) :
    (outsAt0 m c t.val t.isLt).1 = k0_pay3 (F := Ideal) (accAt m c t.val t.isLt) (mblk m c t) (nblk m c t) (tblk m c t) := by
  have h0 : ¬t.val % 8 = 0 := by omega
  rw [acc_later m c t h0, outsAt0_C m c t h0 h1]
  dsimp only
  exact Pieces.spikes_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) ((hcond0_1 t).mpr h1)

theorem thresh_vec (c : Dev nD) (t : Fin cfg0.N) (h1 : t.val % 8 = 7) :
    (outsAt0 m c t.val t.isLt).2.1
      = k0_pay4 (F := Ideal) (accAt m c t.val t.isLt) (mblk m c t) (nblk m c t) (tblk m c t) (tblk m c t) := by
  have h0 : ¬t.val % 8 = 0 := by omega
  rw [acc_later m c t h0, outsAt0_C m c t h0 h1]
  dsimp only
  exact Pieces.thresh_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) ((hcond0_1 t).mpr h1)

theorem current_vec (c : Dev nD) (t : Fin cfg0.N) (h1 : t.val % 8 = 7) :
    (outsAt0 m c t.val t.isLt).2.2.1 = accAt m c t.val t.isLt := by
  have h0 : ¬t.val % 8 = 0 := by omega
  rw [acc_later m c t h0, outsAt0_C m c t h0 h1]
  dsimp only
  exact Pieces.current_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) ((hcond0_1 t).mpr h1)

/-- The same at one entry: the layer's spike, threshold and current of neuron 2048·(t / 8) + q. -/
theorem spikes_at (c : Dev nD) (t : Fin cfg0.N) (h1 : t.val % 8 = 7) (q : Fin 2048) :
    (outsAt0 m c t.val t.isLt).1 (ix2 0 q)
      = spk (argX m c) (argS m c) (argM m c) (argT m c) (argN m c) (neuron t q) := by
  rw [spikes_vec m c t h1, Point.spike_apply, acc_last m c t h1 q,
    show mblk m c t (ix2 0 q) = _ from membrane_apply m c t q, show nblk m c t (ix2 0 q) = _ from noise_apply m c t q,
    show tblk m c t (ix2 0 q) = _ from Blocks.threshold_apply m c t q]
  rfl

theorem thresh_at (c : Dev nD) (t : Fin cfg0.N) (h1 : t.val % 8 = 7) (q : Fin 2048) :
    (outsAt0 m c t.val t.isLt).2.1 (ix2 0 q)
      = vth (argX m c) (argS m c) (argM m c) (argT m c) (argN m c) (neuron t q) := by
  rw [thresh_vec m c t h1, Point.threshold_apply, ← spikes_vec m c t h1, spikes_at m c t h1 q,
    show tblk m c t (ix2 0 q) = _ from Blocks.threshold_apply m c t q]
  rfl

theorem current_at (c : Dev nD) (t : Fin cfg0.N) (h1 : t.val % 8 = 7) (q : Fin 2048) :
    (outsAt0 m c t.val t.isLt).2.2.1 (ix2 0 q) = cur (argX m c) (argS m c) (neuron t q) := by
  rw [current_vec m c t h1, acc_last m c t h1 q]

end Cert.KernelIdeal.Chain

end
-- ==== Proof.KFinal.lean ====
/-
  The kernel's three result rows after the run, and its results after the host operations that follow.

  Each output is one row of 8192 entries written back tile by tile: the last point of row-tile i writes columns
  2048·i … 2048·i + 2047, and the four tiles cover the row. So after the run the three rows hold the layer's spike,
  threshold and current of neuron n at column n. The host then reshapes the rows to vectors (the same row-major
  position) and applies the membrane update to the membrane vector, the spikes and the current.
-/
import proofs.«127771_j53111565582354_1_alg».proof.Proof.KChain
import Idealize.ShloMosaic.Lib.Pipeline.Value
import Idealize.ShloMosaic.Lib.StableHlo.Run

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Chain SpikeSpec

variable (m : (ℓ : Loc nD τ sig) → Buf (Elt Ideal) ℓ) (ρ : Dev nD → PrngReg)

/-- The three result rows: the layer's quantity of neuron n at column n. -/
def spikeRow (c : Dev nD) : FVec Ideal S1x8192 .f32 :=
  fun j => spk (argX m c) (argS m c) (argM m c) (argT m c) (argN m c) (j 1)
def threshRow (c : Dev nD) : FVec Ideal S1x8192 .f32 :=
  fun j => vth (argX m c) (argS m c) (argM m c) (argT m c) (argN m c) (j 1)
def currentRow (c : Dev nD) : FVec Ideal S1x8192 .f32 :=
  fun j => cur (argX m c) (argS m c) (j 1)

/-! ## The spikes (window 5) -/

/-- An entry of the result row lies in the block of point t iff its column lies in the tile's 2048 columns. -/
theorem mem_blk5 (t : Fin cfg0.N) (i : S1x8192.Idx) :
    i ∈ ((cfg0.win 5).blk t).view.set ↔ ∀ a : Fin 2, win0_5.index t a * S1x2048.size a ≤ (i a).val ∧ (i a).val < win0_5.index t a * S1x2048.size a + S1x2048.size a := by
  show i ∈ ((View.whole main_v3_0).slice (win0_5.rect t)).set ↔ _
  rw [View.set_slice_whole, Rect.mem_set_unit]
  exact Iff.rfl

/-- Every column n is written back by the last point of row-tile n / 2048. -/
theorem cover5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 32 := N_0
  obtain ⟨t, ht⟩ : ∃ t : Fin cfg0.N, t.val = 8 * ((i 1).val / 2048) + 7 := ⟨⟨8 * ((i 1).val / 2048) + 7, by rw [hN]; omega⟩, rfl⟩
  refine ⟨t, (flush0_5 t).mpr (by omega), ?_⟩
  rw [mem_blk5]
  obtain ⟨a0, a1, b0, b1, c0, c1, d0, d1, e0, e1, f0, f1, g0, g1, h0, h1⟩ := idx_facts t
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 2048 ≤ (i 1).val ∧ (i 1).val < win0_5.index t (1 : Fin 2) * 2048 + 2048; omega

/-- The block the last point of a row-tile writes back is that tile's stretch of the row. -/
theorem block5_at (c : Dev nD) (t : Fin cfg0.N) (h7 : t.val % 8 = 7) (y : S1x2048.Idx) :
    (outsAt0 m c t.val t.isLt).1 y = spikeRow m c (((cfg0.win 5).blk t).view.emb y) := by
  obtain ⟨p, q, rfl⟩ : ∃ (p : Fin 1) (q : Fin 2048), y = ix2 p q := ⟨y 0, y 1, eq_ix2 y⟩
  obtain rfl : p = 0 := Subsingleton.elim _ _
  rw [spikes_at m c t h7 q]
  unfold spikeRow
  refine congrArg _ (Fin.ext ?_)
  obtain ⟨a0, a1, b0, b1, c0, c1, d0, d1, e0, e1, f0, f1, g0, g1, h0, h1⟩ := idx_facts t
  show 2048 * (t.val / 8) + q.val = win0_5.index t (1 : Fin 2) * 2048 + 1 * q.val
  omega

theorem flushed5 (c : Dev nD) (t : Fin cfg0.N) (hf : (cfg0.win 5).flush t = true) :
    (dats m 0 c).flushed 5 t = ((cfg0.win 5).blk t).view.read (Elt Ideal) (spikeRow m c) := by
  have key := block5_at m c t ((flush0_5 t).mp hf)
  show (cfg0.win 5).cut (grid0.coords t) ((dats m 0 c).after 5 t) = _
  rw [after0_5]
  generalize (outsAt0 m c t.val t.isLt).1 = o at key ⊢
  funext y
  exact key y

/-- The result array after the run. -/
theorem final5 (c : Dev nD) : (dats m 0 c).arrAt 5 cfg0.N = spikeRow m c :=
  (dats m 0 c).arrAt_eq_of_cover 5 (spikeRow m c) (flushed5 m c) cover5

/-! ## The threshold (window 6) -/

/-- An entry of the result row lies in the block of point t iff its column lies in the tile's 2048 columns. -/
theorem mem_blk6 (t : Fin cfg0.N) (i : S1x8192.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v3_1).slice (win0_6.rect t)).set ↔ _
  rw [View.set_slice_whole, Rect.mem_set_unit]
  exact Iff.rfl

/-- Every column n is written back by the last point of row-tile n / 2048. -/
theorem cover6 (i : S1x8192.Idx) : ∃ t : Fin cfg0.N, (cfg0.win 6).flush t = true ∧ i ∈ ((cfg0.win 6).blk t).view.set := by
  have hi0 : (i 0).val < 1 := (i 0).isLt
  have hi1 : (i 1).val < 8192 := (i 1).isLt
  have hN : cfg0.N = 32 := N_0
  obtain ⟨t, ht⟩ : ∃ t : Fin cfg0.N, t.val = 8 * ((i 1).val / 2048) + 7 := ⟨⟨8 * ((i 1).val / 2048) + 7, by rw [hN]; omega⟩, rfl⟩
  refine ⟨t, (flush0_6 t).mpr (by omega), ?_⟩
  rw [mem_blk6]
  obtain ⟨a0, a1, b0, b1, c0, c1, d0, d1, e0, e1, f0, f1, g0, g1, h0, h1⟩ := idx_facts t
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 2048 ≤ (i 1).val ∧ (i 1).val < win0_6.index t (1 : Fin 2) * 2048 + 2048; omega

/-- The block the last point of a row-tile writes back is that tile's stretch of the row. -/
theorem block6_at (c : Dev nD) (t : Fin cfg0.N) (h7 : t.val % 8 = 7) (y : S1x2048.Idx) :
    (outsAt0 m c t.val t.isLt).2.1 y = threshRow m c (((cfg0.win 6).blk t).view.emb y) := by
  obtain ⟨p, q, rfl⟩ : ∃ (p : Fin 1) (q : Fin 2048), y = ix2 p q := ⟨y 0, y 1, eq_ix2 y⟩
  obtain rfl : p = 0 := Subsingleton.elim _ _
  rw [thresh_at m c t h7 q]
  unfold threshRow
  refine congrArg _ (Fin.ext ?_)
  obtain ⟨a0, a1, b0, b1, c0, c1, d0, d1, e0, e1, f0, f1, g0, g1, h0, h1⟩ := idx_facts t
  show 2048 * (t.val / 8) + q.val = win0_6.index t (1 : Fin 2) * 2048 + 1 * q.val
  omega

theorem flushed6 (c : Dev nD) (t : Fin cfg0.N) (hf : (cfg0.win 6).flush t = true) :
    (dats m 0 c).flushed 6 t = ((cfg0.win 6).blk t).view.read (Elt Ideal) (threshRow m c) := by
  have key := block6_at m c t ((flush0_6 t).mp hf)
  show (cfg0.win 6).cut (grid0.coords t) ((dats m 0 c).after 6 t) = _
  rw [after0_6]
  generalize (outsAt0 m c t.val t.isLt).2.1 = o at key ⊢
  funext y
  exact key y

/-- The result array after the run. -/
theorem final6 (c : Dev nD) : (dats m 0 c).arrAt 6 cfg0.N = threshRow m c :=
  (dats m 0 c).arrAt_eq_of_cover 6 (threshRow m c) (flushed6 m c) cover6

/-! ## The current (window 7) -/

/-- An entry of the result row lies in the block of point t iff its column lies in the tile's 2048 columns. -/
theorem mem_blk7 (t : Fin cfg0.N) (i : S1x8192.Idx) :
    i ∈ ((cfg0.win 7).blk t).view.set ↔ ∀ a : Fin 2, win0_7.index t a * S1x2048.size a ≤ (i a).val ∧ (i a).val < win0_7.index t a * S1x2048.size a + S1x2048.size a := by
  show i ∈ ((View.whole main_v3_2).slice (win0_7.rect t)).set ↔ _
  rw [View.set_slice_whole, Rect.mem_set_unit]
  exact Iff.rfl

/-- Every column n is written back by the last point of row-tile n / 2048. -/
theorem cover7 (i : S1x8192.Idx) : ∃ t : Fin cfg0.N, (cfg0.win 7).flush t = true ∧ i ∈ ((cfg0.win 7).blk t).view.set := by
  have hi0 : (i 0).val < 1 := (i 0).isLt
  have hi1 : (i 1).val < 8192 := (i 1).isLt
  have hN : cfg0.N = 32 := N_0
  obtain ⟨t, ht⟩ : ∃ t : Fin cfg0.N, t.val = 8 * ((i 1).val / 2048) + 7 := ⟨⟨8 * ((i 1).val / 2048) + 7, by rw [hN]; omega⟩, rfl⟩
  refine ⟨t, (flush0_7 t).mpr (by omega), ?_⟩
  rw [mem_blk7]
  obtain ⟨a0, a1, b0, b1, c0, c1, d0, d1, e0, e1, f0, f1, g0, g1, h0, h1⟩ := idx_facts t
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 2048 ≤ (i 1).val ∧ (i 1).val < win0_7.index t (1 : Fin 2) * 2048 + 2048; omega

/-- The block the last point of a row-tile writes back is that tile's stretch of the row. -/
theorem block7_at (c : Dev nD) (t : Fin cfg0.N) (h7 : t.val % 8 = 7) (y : S1x2048.Idx) :
    (outsAt0 m c t.val t.isLt).2.2.1 y = currentRow m c (((cfg0.win 7).blk t).view.emb y) := by
  obtain ⟨p, q, rfl⟩ : ∃ (p : Fin 1) (q : Fin 2048), y = ix2 p q := ⟨y 0, y 1, eq_ix2 y⟩
  obtain rfl : p = 0 := Subsingleton.elim _ _
  rw [current_at m c t h7 q]
  unfold currentRow
  refine congrArg _ (Fin.ext ?_)
  obtain ⟨a0, a1, b0, b1, c0, c1, d0, d1, e0, e1, f0, f1, g0, g1, h0, h1⟩ := idx_facts t
  show 2048 * (t.val / 8) + q.val = win0_7.index t (1 : Fin 2) * 2048 + 1 * q.val
  omega

theorem flushed7 (c : Dev nD) (t : Fin cfg0.N) (hf : (cfg0.win 7).flush t = true) :
    (dats m 0 c).flushed 7 t = ((cfg0.win 7).blk t).view.read (Elt Ideal) (currentRow m c) := by
  have key := block7_at m c t ((flush0_7 t).mp hf)
  show (cfg0.win 7).cut (grid0.coords t) ((dats m 0 c).after 7 t) = _
  rw [after0_7]
  generalize (outsAt0 m c t.val t.isLt).2.2.1 = o at key ⊢
  funext y
  exact key y

/-- The result array after the run. -/
theorem final7 (c : Dev nD) : (dats m 0 c).arrAt 7 cfg0.N = currentRow m c :=
  (dats m 0 c).arrAt_eq_of_cover 7 (currentRow m c) (flushed7 m c) cover7

/-! ## After the region -/

/-- A row reshaped to a vector: entry n is entry (0, n). -/
theorem vector_apply (v : FVec Ideal S1x8192 .f32) (n : Fin 8192) :
    shapeCast S8192 v shapeCasts_S1x8192_S8192 (ix1 n) = v (ix2 0 n) :=
  shapeCast_apply v shapeCasts_S1x8192_S8192 (ix1 n) (ix2 0 n)
    (by rewrite [Shape.rowMajor_val_one, Shape.rowMajor_val_two]; show 0 * 8192 + n.val = n.val; omega)

theorem spikes_vector (c : Dev nD) : shapeCast S8192 (spikeRow m c) shapeCasts_S1x8192_S8192
    = spkVec (argX m c) (argS m c) (argM m c) (argT m c) (argN m c) := by
  funext i
  obtain ⟨n, rfl⟩ : ∃ n : Fin 8192, i = ix1 n := ⟨i 0, eq_ix1 i⟩
  rw [vector_apply]; rfl
theorem thresh_vector (c : Dev nD) : shapeCast S8192 (threshRow m c) shapeCasts_S1x8192_S8192
    = vthVec (argX m c) (argS m c) (argM m c) (argT m c) (argN m c) := by
  funext i
  obtain ⟨n, rfl⟩ : ∃ n : Fin 8192, i = ix1 n := ⟨i 0, eq_ix1 i⟩
  rw [vector_apply]; rfl
theorem current_vector (c : Dev nD) : shapeCast S8192 (currentRow m c) shapeCasts_S1x8192_S8192
    = curVec (argX m c) (argS m c) := by
  funext i
  obtain ⟨n, rfl⟩ : ∃ n : Fin 8192, i = ix1 n := ⟨i 0, eq_ix1 i⟩
  rw [vector_apply]; rfl

/-- What the region leaves in its three result arrays and in the membrane argument, as the host tail finds them. -/
abbrev exitVal (c : Dev nD) : Valuation τ sig (Elt Ideal) :=
  Pipeline.withArrays spec0 c (V0 m c) fun w => (dats m 0 c).arrAt w cfg0.N

theorem exit_spikes (c : Dev nD) : exitVal m c (Proc.devRef .tc main_v3_0) = spikeRow m c :=
  (Pipeline.withArrays_arr spec0 launch0.win.arr_inj c _ _ 5).trans (final5 m c)
theorem exit_thresh (c : Dev nD) : exitVal m c (Proc.devRef .tc main_v3_1) = threshRow m c :=
  (Pipeline.withArrays_arr spec0 launch0.win.arr_inj c _ _ 6).trans (final6 m c)
theorem exit_current (c : Dev nD) : exitVal m c (Proc.devRef .tc main_v3_2) = currentRow m c :=
  (Pipeline.withArrays_arr spec0 launch0.win.arr_inj c _ _ 7).trans (final7 m c)
theorem exit_membrane (c : Dev nD) : exitVal m c (Proc.devRef .tc main_arg2) = argM m c :=
  (Pipeline.withArrays_of_ne _ c (V0 m c) _ main_arg2 (by exact (by decide : ∀ w, Pipeline.arrRef spec0 w ≠ main_arg2))).trans
    (V_main_arg2 m c)

/-- The three results after the host tail. -/
theorem tail_spikes (c : Dev nD) :
    Pipeline.afterTail₀ cfgs (dats m) 0 (V0 m) [hostOps1] c main_v4
      = spkVec (argX m c) (argS m c) (argM m c) (argT m c) (argN m c) := by
  unfold Pipeline.afterTail₀
  show StableHlo.after hostOps1 (exitVal m c) (Proc.devRef .tc main_v4) = _
  after_results
  rw [exit_spikes]
  exact Eq.trans (b := shapeCast S8192 (spikeRow m c) shapeCasts_S1x8192_S8192) rfl (spikes_vector m c)

theorem tail_thresh (c : Dev nD) :
    Pipeline.afterTail₀ cfgs (dats m) 0 (V0 m) [hostOps1] c main_v5
      = vthVec (argX m c) (argS m c) (argM m c) (argT m c) (argN m c) := by
  unfold Pipeline.afterTail₀
  show StableHlo.after hostOps1 (exitVal m c) (Proc.devRef .tc main_v5) = _
  after_results
  rw [exit_thresh]
  exact Eq.trans (b := shapeCast S8192 (threshRow m c) shapeCasts_S1x8192_S8192) rfl (thresh_vector m c)

theorem tail_membrane (c : Dev nD) :
    Pipeline.afterTail₀ cfgs (dats m) 0 (V0 m) [hostOps1] c main_v16
      = tail reducesTo_S8192_S_d0 h_S_ bcast_S_S8192 (argM m c)
          (spkVec (argX m c) (argS m c) (argM m c) (argT m c) (argN m c)) (curVec (argX m c) (argS m c)) := by
  unfold Pipeline.afterTail₀
  show StableHlo.after hostOps1 (exitVal m c) (Proc.devRef .tc main_v16) = _
  after_results
  rw [exit_spikes, exit_current, exit_membrane, ← spikes_vector m c, ← current_vector m c]
  rfl

/-- The kernel's run with its three results named by the layer's functions of the arguments. -/
theorem run : θ_run defs (onTc (τ := τ) (main (F := Ideal))) ⟨m, fun _ => 0, ρ⟩ fun r => ∀ c : Dev nD,
      r.2.mem ((c.tc : Thread nD τ).loc main_v4) = spkVec (argX m c) (argS m c) (argM m c) (argT m c) (argN m c)
      ∧ r.2.mem ((c.tc : Thread nD τ).loc main_v16)
        = tail reducesTo_S8192_S_d0 h_S_ bcast_S_S8192 (argM m c)
            (spkVec (argX m c) (argS m c) (argM m c) (argT m c) (argN m c)) (curVec (argX m c) (argS m c))
      ∧ r.2.mem ((c.tc : Thread nD τ).loc main_v5) = vthVec (argX m c) (argS m c) (argM m c) (argT m c) (argN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_spikes m c),
     ((h c).2 main_v16 (Pipeline.mem_restRefs_of main_v16 (by decide) (by decide))).trans (tail_membrane m c),
     ((h c).2 main_v5 (Pipeline.mem_restRefs_of main_v5 (by decide) (by decide))).trans (tail_thresh m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Final

end
-- ==== Proof.RefValue.lean ====
/-
  The reference program computes the spiking layer's three results.

  Its current is one matrix product of the input row with the transposed 0/1 weight matrix: entry n is the sum over
  the 8192 inputs k of x[0, k] times the weight of state[n, k] (the transpose only swaps the two coordinates the weight
  is read at). The spikes and the clipped threshold are then pointwise in that current, and the membrane update is
  the shared chain of whole-vector operations applied to (membrane, spikes, current).
-/
import proofs.«127771_j53111565582354_1_alg».proof.Proof.Gen.ReferenceIdeal.Run
import proofs.«127771_j53111565582354_1_alg».proof.Proof.Gen.ReferenceIdeal.Read
import proofs.«127771_j53111565582354_1_alg».proof.Proof.Spec

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read SpikeSpec

variable (x0 : (⟨S1x8192, .f32⟩ : BufTy).Contents (Elt Ideal)) (x1 : (⟨S8192x8192, .f32⟩ : BufTy).Contents (Elt Ideal))
  (x2 x3 x4 : (⟨S8192, .f32⟩ : BufTy).Contents (Elt Ideal))

/-- The reshaped product row is the current: term k of entry n is x[0, k] times the weight of state[n, k]. -/
theorem current_eq : val_main_v5 (F := Ideal) x0 x1 = curVec x0 x1 := by
  funext i
  obtain ⟨n, rfl⟩ : ∃ n : Fin 8192, i = ix1 n := ⟨i 0, eq_ix1 i⟩
  rw [val_main_v5_apply, val_main_v4_apply]
  show _ = cur x0 x1 n
  unfold cur
  refine Finset.sum_congr rfl fun k _ => ?_
  rw [val_main_v3_apply, val_main_v2_apply, val_main_v1_apply, val_main_v0_apply, val_main_cst_apply]
  have el : lidx_main_v4 (idx_main_v5 (ix1 n)) k = ix2 0 k :=
    funext fun a => Fin.ext (by match a with | ⟨0, _⟩ => rfl | ⟨1, _⟩ => rfl)
  have er : idx_main_v3 (ridx_main_v4 (idx_main_v5 (ix1 n)) k) = ix2 n k :=
    funext fun a => Fin.ext (by
      match a with
      | ⟨0, _⟩ => exact Nat.mod_eq_of_lt n.isLt
      | ⟨1, _⟩ => rfl)
  rw [el, er]
  rfl

/-- The spikes: membrane + current + noise against the threshold, entry by entry. -/
theorem spikes_eq : val_main_v9 (F := Ideal) x0 x1 x2 x3 x4 = spkVec x0 x1 x2 x3 x4 := by
  funext i
  obtain ⟨n, rfl⟩ : ∃ n : Fin 8192, i = ix1 n := ⟨i 0, eq_ix1 i⟩
  rw [val_main_v9_apply, val_main_v8_apply, val_main_v7_apply, val_main_v6_apply, current_eq]
  rfl

/-- The threshold moved by (spike - 0.1) * 0.01 and clipped to [0.2, 5]. -/
theorem thresh_eq : val_main_v25 (F := Ideal) x0 x1 x2 x3 x4 = vthVec x0 x1 x2 x3 x4 := by
  funext i
  obtain ⟨n, rfl⟩ : ∃ n : Fin 8192, i = ix1 n := ⟨i 0, eq_ix1 i⟩
  rw [val_main_v25_apply, val_main_call0_v4_apply, val_main_call0_v3_apply, val_main_cst_7_apply,
    val_main_call0_v2_apply, val_main_call0_v1_apply, val_main_call0_v0_apply, val_main_cst_6_apply,
    val_main_v24_apply, val_main_v23_apply, val_main_v22_apply, val_main_cst_5_apply,
    val_main_v21_apply, val_main_v20_apply, val_main_cst_4_apply, spikes_eq]
  rfl

/-- The membrane update is the shared chain applied to the membrane, the spikes and the current. -/
theorem membrane_eq : val_main_v19 (F := Ideal) x0 x1 x2 x3 x4
    = tail reducesTo_S8192_S_d0 h_S_ bcast_S_S8192 x2 (val_main_v9 (F := Ideal) x0 x1 x2 x3 x4) (val_main_v5 (F := Ideal) x0 x1) := by
  unfold val_main_v19 val_main_v18 val_main_v17 val_main_v16 val_main_v15 val_main_v14 val_main_v13 val_main_v12
    val_main_v11 val_main_v10 val_main_cst_0 val_main_cst_1 val_main_cst_2 val_main_cst_3 tail
  rfl

/-- The reference's run with its three results named by the layer's functions of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
        = spkVec (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_v19)
        = tail reducesTo_S8192_S_d0 h_S_ bcast_S_S8192 (m ((c.tc : Thread nD τ).loc main_arg2))
            (spkVec (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)))
            (curVec (m ((c.tc : Thread nD τ).loc main_arg0)) (m ((c.tc : Thread nD τ).loc main_arg1)))
      ∧ r.2.mem ((c.tc : Thread nD τ).loc main_v25)
        = vthVec (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans ((val_main_v9_eq _ _ _ _ _).trans (spikes_eq _ _ _ _ _)),
     (h c).2.1.trans ((val_main_v19_eq _ _ _ _ _).trans (by rw [membrane_eq, spikes_eq, current_eq])),
     (h c).2.2.1.trans ((val_main_v25_eq _ _ _ _ _).trans (thresh_eq _ _ _ _ _)),
     (h c).2.2.2⟩)
    (Cert.ReferenceIdeal.Value.run (F := Ideal) m ρ)

end Cert.ReferenceIdeal.RefValue

end
-- ==== Proof.lean ====
/-
  The certificate of the spiking layer: the Pallas kernel and its jnp reference compute the same three results over
  the extended reals.

  Both programs turn the 8192 × 8192 synapse states into 0/1 weights (state above 50), take the input current of
  neuron n as the sum over the inputs k of x[0, k] times the weight of state[n, k], decide the spike from membrane +
  current + noise against the threshold, move and clip the threshold, and update the membrane from the spike count.
  The kernel accumulates each current over eight blocks of 1024 inputs across its grid and writes the outputs at the
  last block of a row of tiles; the reference forms one product with the transposed weight matrix. Over the extended
  reals the eight ordered block sums are the whole sum (addition is commutative and associative, zero is neutral), a
  change of float format is the identity, and the two 0/1 conversions of a comparison agree, so the results coincide
  entry by entry; the membrane update is the same whole-vector chain applied to equal vectors. No finiteness of the
  inputs is used.
-/
import proofs.«127771_j53111565582354_1_alg».proof.Defs
import proofs.«127771_j53111565582354_1_alg».proof.Proof.Gen.Kernel
import proofs.«127771_j53111565582354_1_alg».proof.Proof.Gen.Kernel.Skeleton
import proofs.«127771_j53111565582354_1_alg».proof.Proof.Gen.Kernel.Launch
import proofs.«127771_j53111565582354_1_alg».proof.Proof.Gen.Kernel.Points
import proofs.«127771_j53111565582354_1_alg».proof.Proof.Gen.Kernel.Frame
import proofs.«127771_j53111565582354_1_alg».proof.Proof.Gen.KernelIdeal
import proofs.«127771_j53111565582354_1_alg».proof.Proof.Gen.KernelIdeal.Skeleton
import proofs.«127771_j53111565582354_1_alg».proof.Proof.Gen.KernelIdeal.Launch
import proofs.«127771_j53111565582354_1_alg».proof.Proof.Gen.KernelIdeal.Points
import proofs.«127771_j53111565582354_1_alg».proof.Proof.Gen.KernelIdeal.Frame
import proofs.«127771_j53111565582354_1_alg».proof.Proof.Gen.ReferenceIdeal
import proofs.«127771_j53111565582354_1_alg».proof.Proof.Gen.Pre_finite_inputs
import proofs.«127771_j53111565582354_1_alg».proof.Proof.KFinal
import proofs.«127771_j53111565582354_1_alg».proof.Proof.RefValue
import Idealize.ShloMosaic.Adequacy
import Idealize.ShloMosaic.Init

noncomputable section

namespace Cert.Proof

open Idealize.ShloMosaic Idealize.SL.Sem SpikeSpec

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- From memories that agree on the five arguments both programs end with the layer's spikes, updated membrane and
    moved threshold of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.Final.run m ρ, ?_⟩
  refine (θ_run Cert.ReferenceIdeal.defs _ _).mono (fun _ h c => ?_) (Cert.ReferenceIdeal.RefValue.run m' ρ')
  obtain ⟨e0, e1, e2, e3, e4⟩ := hagree c
  refine ⟨(h c).1.trans ?_, (h c).2.1.trans ?_, (h c).2.2.1.trans ?_, (h c).2.2.2⟩
  · rw [e0, e1, e2, e3, e4]
  · rw [e0, e1, e2, e3, e4]
  · rw [e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
